-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : IVec S8 32) (main_arg2 : FVec F S8x64x512 .f32) (main_arg3 : IVec S8 32) (main_arg4 : FVec F S1024x512 .f32) (main_arg5 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S8x256x64x1024 : Shape := ⟨4, ![8, 256, 64, 1024]⟩
abbrev S1x64x512 : Shape := ⟨3, ![1, 64, 512]⟩
abbrev S512x256 : Shape := ⟨2, ![512, 256]⟩
abbrev S256 : Shape := ⟨1, ![256]⟩
abbrev S1x64x64x256 : Shape := ⟨4, ![1, 64, 64, 256]⟩
abbrev S64x512 : Shape := ⟨2, ![64, 512]⟩
abbrev S64x1x512 : Shape := ⟨3, ![64, 1, 512]⟩
abbrev S64x64x512 : Shape := ⟨3, ![64, 64, 512]⟩
abbrev S4096x512 : Shape := ⟨2, ![4096, 512]⟩
abbrev S4096x256 : Shape := ⟨2, ![4096, 256]⟩
abbrev S1x256 : Shape := ⟨2, ![1, 256]⟩
abbrev S64x64x256 : Shape := ⟨3, ![64, 64, 256]⟩

abbrev nBuf : Space → Nat
  | .hbm => 8
  | .vmem => 10
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S512x1024, .f32⟩
  | .hbm, ⟨7, _⟩ => ⟨S8x256x64x1024, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S512x256, .f32⟩
  | .local _ .vmem, ⟨5, _⟩ => ⟨S512x256, .f32⟩
  | .local _ .vmem, ⟨6, _⟩ => ⟨S256, .f32⟩
  | .local _ .vmem, ⟨7, _⟩ => ⟨S256, .f32⟩
  | .local _ .vmem, ⟨8, _⟩ => ⟨S1x64x64x256, .f32⟩
  | .local _ .vmem, ⟨9, _⟩ => ⟨S1x64x64x256, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x64x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S1024x512_S512x1024_1_0 : S1024x512.Transposes [1, 0] S512x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  bitsLt_bf16_f32 : FTy.bits .bf16 < FTy.bits .f32
  shapeCasts_S64x64x512_S4096x512 : S64x64x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S64x64x256 : S4096x256.ShapeCasts S64x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x256x512.size a
  hwx0_0 : ∀ i : grid0.Coords, EltTy.bits .f32 = 32 ∨ (Rect.block (s := S8x256x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x1024.size a
  hwx0_2 : ∀ i : grid0.Coords, EltTy.bits .f32 = 32 ∨ (Rect.block (s := S512x1024) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S1024.size a
  hwx0_3 : ∀ i : grid0.Coords, EltTy.bits .f32 = 32 ∨ (Rect.block (s := S1024) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x256.size a ≤ S8x256x64x1024.size a
  hwx0_4 : ∀ i : grid0.Coords, EltTy.bits .f32 = 32 ∨ (Rect.block (s := S8x256x64x1024) S1x64x64x256.size (cc0_transform_4 i) (hinb0_4 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S1024x512, .f32⟩
  | .hbm, ⟨5, _⟩ => ⟨S1024, .f32⟩
  | .hbm, ⟨6, _⟩ => ⟨S8x256x1x512, .f32⟩
  | .hbm, ⟨7, _⟩ => ⟨S8x1x64x512, .f32⟩
  | .hbm, ⟨8, _⟩ => ⟨S8x256x64x512, .f32⟩
  | .hbm, ⟨9, _⟩ => ⟨S8x256x64x512, .f32⟩
  | .hbm, ⟨10, _⟩ => ⟨S8x256x64x512, .f32⟩
  | .hbm, ⟨11, _⟩ => ⟨S_, .f32⟩
  | .hbm, ⟨12, _⟩ => ⟨S8x256x64x512, .f32⟩
  | .hbm, ⟨13, _⟩ => ⟨S8x256x64x512, .f32⟩
  | .hbm, ⟨14, _⟩ => ⟨S8x256x64x1024, .f32⟩
  | .hbm, ⟨15, _⟩ => ⟨S1x1x1x1024, .f32⟩
  | .hbm, ⟨16, _⟩ => ⟨S8x256x64x1024, .f32⟩
  | .hbm, ⟨17, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.LibPairRows.lean ====
/-
  Arrays whose rows are indexed by pairs.

  A three-axis array `[a, b, c]` and the matrix `[a·b, c]` hold the same entries in the same row-major order: the
  matrix's row `p·b + q` is the array's row `(p, q)`. A program that multiplies every row `(p, q)` of such an
  array by one matrix first casts the array to the matrix and afterwards casts the product back; and it builds the
  array itself, when the row `(p, q)` is a sum of a row `p` of one matrix and a row `q` of another (an outer sum over the
  rows), by setting the first matrix as `[a, 1, c]`, the second as `[1, b, c]`, and broadcasting both to `[a, b, c]`.

  Each of those layout steps is read here at an index written by coordinates, generic in the extents: the operation at
  `(p, q, k)`, or at row `pairRow p q` and column `k`, is its operand at the index named.
-/
import Idealize.ShloMosaic.Lib.Pipeline.Value
import Idealize.ShloMosaic.Lib.ValueIdx
import Idealize.ShloMosaic.Lib.ValueLayout

namespace Cert.PairRows

open Idealize.ShloMosaic Idealize.ShloMosaic.ValueIdx

variable {α : Type} {a b c n : ℕ}

/-- The row `p·b + q` of a matrix with `n = a·b` rows: the place of the pair `(p, q)` in row-major order. -/
def pairRow (hn : n = a * b) (p : Fin a) (q : Fin b) : Fin n :=
  ⟨p.val * b + q.val, by
    subst hn
    exact Nat.lt_of_lt_of_le (Nat.add_lt_add_left q.isLt _)
      (by rw [← Nat.succ_mul]; exact Nat.mul_le_mul_right b p.isLt)⟩

theorem pairRow_val (hn : n = a * b) (p : Fin a) (q : Fin b) : (pairRow hn p q).val = p.val * b + q.val := rfl

/-! ## The outer sum's two operands laid over `[a, b, c]` -/

/-- An `[a, c]` matrix cast to `[a, 1, c]` reads, at `(p, u, k)`, the operand at `(p, k)`. -/
theorem shapeCast_ac_a1c_apply (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, 1, c]` array broadcast to `[a, b, c]` reads, at `(p, q, k)`, the operand at `(p, 0, k)`: the same for
    every `q`. -/
theorem broadcastTo_a1c_abc_apply (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`: the same for
    every `p`. -/
theorem broadcastTo_1bc_abc_apply (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-! ## Between the array and the matrix of its rows -/

/-- An `[a, b, c]` array cast to the `[n, c]` matrix of its rows, `n = a·b`, reads, at row `p·b + q` and column `k`,
    the operand at `(p, q, k)`. -/
theorem shapeCast_abc_nc_apply (hn : n = a * b) (x : (⟨3, ![a, b, c]⟩ : Shape).Idx → α)
    (h : (⟨3, ![a, b, c]⟩ : Shape).ShapeCasts ⟨2, ![n, c]⟩) (p : Fin a) (q : Fin b) (k : Fin c) :
    shapeCast ⟨2, ![n, c]⟩ x h (ix2 (pairRow hn p q) k) = x (ix3 p q k) :=
  shapeCast_apply x h _ _ (by
    rw [Shape.rowMajor_val_three, Shape.rowMajor_val_two]
    rfl)

/-- An `[n, c]` matrix, `n = a·b`, cast to `[a, b, c]` reads, at `(p, q, k)`, the operand at row `p·b + q` and
    column `k`. -/
theorem shapeCast_nc_abc_apply (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k) = x (ix2 (pairRow hn p q) k) :=
  shapeCast_apply x h _ _ (by
    rw [Shape.rowMajor_val_two, Shape.rowMajor_val_three]
    rfl)

end Cert.PairRows
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«126820_j20873541058896_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«126820_j20873541058896_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelBlock.lean ====
/-
  What one grid point's body computes, entry by entry.

  The body holds a `[1, 64, 512]` block `x0` of source rows, a `[1, 64, 512]` block `x1` of target rows, a
  `[512, 256]` block `x2` of the transposed weights and a `[256]` block `x3` of the bias. It forms the outer sum
  `x0 (p, k) + x1 (q, k)` over all pairs `(p, q)` of a source row and a target row, clamps it at zero from below,
  lays the `64 · 64` pairs out as the rows of a `[4096, 512]` matrix, multiplies that by the weights into a zero
  accumulator, adds the bias along every row, and lays the `[4096, 256]` result back out as `[1, 64, 64, 256]`.
  Read at `(0, p, q, c)` at the ideal values, where the changes of float format are the identity, that is

      Σ_k max (x0 (0, p, k) + x1 (0, q, k), 0) · x2 (k, c)  +  x3 (c).
-/
import proofs.«126820_j20873541058896_1_alg».proof.Proof.Gen.KernelIdeal.Skeleton
import proofs.«126820_j20873541058896_1_alg».proof.Proof.LibPairRows
import proofs.«126820_j20873541058896_1_alg».proof.Proof.LibPlainDot
import Idealize.ShloMosaic.Lib.ValueLayout
import Idealize.ShloMosaic.PureOps.Ideal.Laws

noncomputable section

namespace Cert.KernelIdeal.Block

open Cert.KernelIdeal Cert.KernelIdeal.Gen Cert.KernelIdeal.Facts₀ Idealize.ShloMosaic Idealize.ShloMosaic.ValueIdx
open Cert.PairRows Cert.DenseLayer

/-- The body's matrix product multiplies rows by columns: its dimension numbers are those of a plain product. -/
theorem body_dot_plain : PlainDot dot_S4096x512_S512x256_S4096x256_1_0_0_1_n_n :=
  plainDot_of_axes _ rfl rfl rfl rfl rfl rfl

/-- The `64 · 64` pairs of a source row and a target row are the `4096` rows of the activation matrix. -/
theorem rows_eq : (4096 : ℕ) = 64 * 64 := by decide

/-- The body's product into the zero accumulator, at row `r` and column `c`: row `r` of the left matrix against
    column `c` of the right one, whatever the operands' float formats. -/
theorem body_matmul_apply {φ₁ φ₂ : FTy} (x : FVec Ideal S4096x512 φ₁) (w : FVec Ideal S512x256 φ₂) (r : Fin 4096) (c : Fin 256) :
    matmul dot_S4096x512_S512x256_S4096x256_1_0_0_1_n_n none x w (constant S4096x256 .f32 0x00000000#32) (ix2 r c)
      = ∑ k : Fin 512, x (ix2 r k) * w (ix2 k c) :=
  matmul_zero_apply body_dot_plain none x w (ix2 r c)

/-- The body's stored value at `(0, p, q, c)`: the clamped outer sum of source row `p` and target row `q` against
    column `c` of the weights, plus the bias at `c`. -/
theorem payload_apply (x0 x1 : Vec Ideal S1x64x512 .f32) (x2 : Vec Ideal S512x256 .f32) (x3 : Vec Ideal S256 .f32)
    (p q : Fin 64) (c : Fin 256) :
    k0_pay1 (F := Ideal) x0 x1 x2 x3 (ix4 (0 : Fin 1) p q c)
      = (∑ k : Fin 512, max (x0 (ix3 (0 : Fin 1) p k) + x1 (ix3 (0 : Fin 1) q k)) (Ideal.ofBits .f32 0x00000000#32)
            * x2 (ix2 k c))
        + x3 (ix1 c) := by
  unfold k0_pay1
  rw [shapeCast_abc_1abc_apply, shapeCast_nc_abc_apply rows_eq, addf_apply]
  rw [body_matmul_apply, broadcastTo_1b_ab_apply, shapeCast_a_1a_apply]
  refine congrArg (· + x3 (ix1 c)) (Finset.sum_congr rfl fun k _ => ?_)
  rw [shapeCast_abc_nc_apply rows_eq, truncf_apply, maximumf_apply, addf_apply, broadcast_apply,
    broadcastTo_a1c_abc_apply, shapeCast_ac_a1c_apply, shapeCast_1ab_ab_apply,
    broadcastTo_1bc_abc_apply, shapeCast_ab_1ab_apply, shapeCast_1ab_ab_apply,
    truncf_apply, shapeCast_self]
  rfl

end Cert.KernelIdeal.Block

end
-- ==== Proof.LibJointLayer.lean ====
/-
  The joint layer of a sequence transducer, as a plain function of arrays of extended reals.

  Every source frame `t` of a batch entry `n` is paired with every target position `u` of the same entry: the two
  feature vectors are added, the sum is clamped at zero from below, and the result is sent through one dense layer,
  a `[V, D]` weight matrix applied to the `D` features and a bias added:

      out (n, t, u, v) = Σ_k max (src (n, t, k) + tgt (n, u, k), 0) · w (v, k)  +  bias (v).

  The four-axis array of sums `[B, T, U, D]` is never needed as a whole: an entry of the result depends on `src` only
  through the row `(n, t)`, on `tgt` only through the row `(n, u)`, on `w` only through the row `v`
  (`jointLayer_congr`), which is what lets a program compute the result block by block. Generic in the extents.
-/
import Idealize.ShloMosaic.Lib.ValueIdx
import Idealize.ShloMosaic.PureOps.Ideal

noncomputable section

namespace Cert.JointLayer

open Idealize.ShloMosaic Idealize.ShloMosaic.ValueIdx

variable {B T U D V : ℕ}

/-- The clamped sum of source row `(n, t)` and target row `(n, u)` at feature `k` (the zero written as the word a
    program writes). -/
def act (src : (⟨3, ![B, T, D]⟩ : Shape).Idx → EReal) (tgt : (⟨3, ![B, U, D]⟩ : Shape).Idx → EReal)
    (n : Fin B) (t : Fin T) (u : Fin U) (k : Fin D) : EReal :=
  max (src (ix3 n t k) + tgt (ix3 n u k)) (Ideal.ofBits .f32 0x00000000#32)

/-- The joint layer: the clamped sums against the rows of `w`, plus the bias. -/
def jointLayer (src : (⟨3, ![B, T, D]⟩ : Shape).Idx → EReal) (tgt : (⟨3, ![B, U, D]⟩ : Shape).Idx → EReal)
    (w : (⟨2, ![V, D]⟩ : Shape).Idx → EReal) (bias : (⟨1, ![V]⟩ : Shape).Idx → EReal) :
    (⟨4, ![B, T, U, V]⟩ : Shape).Idx → EReal :=
  fun i => (∑ k : Fin D, act src tgt (i 0) (i 1) (i 2) k * w (ix2 (i 3) k)) + bias (ix1 (i 3))

theorem jointLayer_apply (src : (⟨3, ![B, T, D]⟩ : Shape).Idx → EReal) (tgt : (⟨3, ![B, U, D]⟩ : Shape).Idx → EReal)
    (w : (⟨2, ![V, D]⟩ : Shape).Idx → EReal) (bias : (⟨1, ![V]⟩ : Shape).Idx → EReal)
    (n : Fin B) (t : Fin T) (u : Fin U) (v : Fin V) :
    jointLayer src tgt w bias (ix4 n t u v) = (∑ k : Fin D, act src tgt n t u k * w (ix2 v k)) + bias (ix1 v) := rfl

/-- An entry of the joint layer is any sum of products and a bias term that agree with it factor by factor: what a
    program computing one block shows of the block's entries. -/
theorem jointLayer_congr (src : (⟨3, ![B, T, D]⟩ : Shape).Idx → EReal) (tgt : (⟨3, ![B, U, D]⟩ : Shape).Idx → EReal)
    (w : (⟨2, ![V, D]⟩ : Shape).Idx → EReal) (bias : (⟨1, ![V]⟩ : Shape).Idx → EReal)
    (i : (⟨4, ![B, T, U, V]⟩ : Shape).Idx) (f g h : Fin D → EReal) (z : EReal)
    (hf : ∀ k, f k = src (ix3 (i 0) (i 1) k)) (hg : ∀ k, g k = tgt (ix3 (i 0) (i 2) k))
    (hh : ∀ k, h k = w (ix2 (i 3) k)) (hz : z = bias (ix1 (i 3))) :
    (∑ k : Fin D, max (f k + g k) (Ideal.ofBits .f32 0x00000000#32) * h k) + z = jointLayer src tgt w bias i := by
  unfold jointLayer act
  rw [hz]
  exact congrArg (· + bias (ix1 (i 3))) (Finset.sum_congr rfl fun k _ => by rw [hf k, hg k, hh k])

end Cert.JointLayer

end
-- ==== Proof.KernelArray.lean ====
/-
  The kernel's result array is the joint layer of its arguments.

  The grid has a point for every batch entry `n`, every block of 64 source frames and every block of 256 output
  columns. At a point the body is handed rows `64·tt … 64·tt + 63` of entry `n` of the source, all 64 rows of entry
  `n` of the target, columns `256·vv … 256·vv + 255` of the transposed weights and the same stretch of the bias, and
  it writes the `[1, 64, 64, 256]` block of the result at `(n, 64·tt, 0, 256·vv)`. Entry `(0, p, q, c)` of what it
  writes is the clamped outer sum of source row `p` and target row `q` against weight column `c`, plus the bias
  (`Block.payload_apply`); through the blocks' offsets that is the joint layer at `(n, 64·tt + p, q, 256·vv + c)`:
  the transposed weights at `(k, v)` are the weights at `(v, k)`. So every point writes back its block of ONE
  function of the arguments, and the blocks tile the result array.
-/
import proofs.«126820_j20873541058896_1_alg».proof.Proof.Gen.KernelIdeal.Value
import proofs.«126820_j20873541058896_1_alg».proof.Proof.KernelBlock
import proofs.«126820_j20873541058896_1_alg».proof.Proof.LibJointLayer
import Idealize.ShloMosaic.Lib.ValueLayout
import Idealize.ShloMosaic.Lib.StableHlo.Run

noncomputable section

namespace Cert.KernelIdeal.Joint

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.JointLayer

variable (m : (ℓ : Loc nD τ sig) → Buf (Elt Ideal) ℓ) (ρ : Dev nD → PrngReg)

/-! ## One block's entry -/

/-- An entry of the body's stored block is the joint layer's entry at `(n, t, u, v)`, once the rows of the blocks it
    reads are the rows of the arrays that `(n, t, u, v)` names. -/
theorem block_entry (x0 x1 : Vec Ideal S1x64x512 .f32) (x2 : Vec Ideal S512x256 .f32) (x3 : Vec Ideal S256 .f32)
    (src : FVec Ideal S8x256x512 .f32) (tgt : FVec Ideal S8x64x512 .f32) (w : FVec Ideal S1024x512 .f32)
    (bias : FVec Ideal S1024 .f32) (p q : Fin 64) (c : Fin 256) (n : Fin 8) (t : Fin 256) (u : Fin 64) (v : Fin 1024)
    (h0 : ∀ k : Fin 512, x0 (ix3 (0 : Fin 1) p k) = src (ix3 n t k))
    (h1 : ∀ k : Fin 512, x1 (ix3 (0 : Fin 1) q k) = tgt (ix3 n u k))
    (h2 : ∀ k : Fin 512, x2 (ix2 k c) = w (ix2 v k))
    (h3 : x3 (ix1 c) = bias (ix1 v)) :
    k0_pay1 (F := Ideal) x0 x1 x2 x3 (ix4 (0 : Fin 1) p q c) = jointLayer src tgt w bias (ix4 n t u v) := by
  rw [Block.payload_apply]
  exact jointLayer_congr src tgt w bias (ix4 n t u v) (fun k => x0 (ix3 (0 : Fin 1) p k)) (fun k => x1 (ix3 (0 : Fin 1) q k))
    (fun k => x2 (ix2 k c)) _ h0 h1 h2 h3

/-! ## The weights as the region finds them -/

/-- The one host operation before the region writes the transposed weights. -/
theorem weights_at_entry (c : Dev nD) :
    (V m c main_v0 : S512x1024.Idx → EReal)
      = transpose S512x1024 [1, 0] (m ((c : Thread nD τ).loc main_arg4)) transposes_S1024x512_S512x1024_1_0 := by
  dsimp only [V, hostOps0]; after_results

/-- At `(k, v)` they are the weights at `(v, k)`. -/
theorem weights_at_entry_apply (c : Dev nD) (k : Fin 512) (v : Fin 1024) :
    (V m c main_v0 : S512x1024.Idx → EReal) (ix2 k v) = m ((c : Thread nD τ).loc main_arg4) (ix2 v k) := by
  rw [weights_at_entry]
  exact transpose_ix2_apply _ _ k v

/-! ## The blocks' offsets -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the grid's 128 points: the source block moves with the result block along
    the batch entries and the frames, the target block along the batch entries only, the weight and bias blocks along
    the output columns; every other block index is zero, and the result's block indices stay in their ranges. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0
    ∧ win0_1.index t (2 : Fin 3) = 0
    ∧ win0_2.index t (0 : Fin 2) = 0 ∧ win0_2.index t (1 : Fin 2) = win0_4.index t (3 : Fin 4)
    ∧ win0_3.index t (0 : Fin 1) = win0_4.index t (3 : Fin 4)
    ∧ win0_4.index t (0 : Fin 4) ≤ 7 ∧ win0_4.index t (1 : Fin 4) ≤ 3 ∧ win0_4.index t (2 : Fin 4) = 0
    ∧ win0_4.index t (3 : Fin 4) ≤ 3 :=
  (by decide +kernel : ∀ t : Fin grid0.N, _)

/-- Every block of the result array is some point's. -/
theorem idx_onto : ∀ (q0 : Fin 8) (q1 : Fin 4) (q3 : Fin 4), ∃ t : Fin cfg0.N, win0_4.index t = ![q0.val, q1.val, 0, q3.val] :=
  (by decide +kernel : ∀ (q0 : Fin 8) (q1 : Fin 4) (q3 : Fin 4), ∃ t : Fin grid0.N, win0_4.index t = ![q0.val, q1.val, 0, q3.val])

/-- An index of a result block by its coordinates. -/
theorem block_coords (j : S1x64x64x256.Idx) : ∃ (p q : Fin 64) (cc : Fin 256), j = ix4 (0 : Fin 1) p q cc :=
  ⟨j 1, j 2, j 3, (eq_ix4 j).trans (congrArg (fun u : Fin 1 => ix4 u (j 1) (j 2) (j 3)) (Fin.eq_zero (j 0)))⟩

/-! ## What a point writes back -/

/-- The joint layer of the argument arrays as launched. -/
abbrev result (c : Dev nD) : S8x256x64x1024.Idx → EReal :=
  jointLayer (m ((c : Thread nD τ).loc main_arg0)) (m ((c : Thread nD τ).loc main_arg2))
    (m ((c : Thread nD τ).loc main_arg4)) (m ((c : Thread nD τ).loc main_arg5))

/-- What point `t` writes back is block `t` of the joint layer of the argument arrays. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zeros4]
  simp only [View.ld_unit_zero (S := S1x64x512) zeros3, View.ld_unit_zero (S := S512x256) zeros2,
    View.ld_unit_zero (S := S256) zeros1]
  obtain ⟨e00, e01, e02, e10, e11, e12, e20, e21, e30, b0, b1, e42, b3⟩ := idx_facts t
  refine funext fun (j : S1x64x64x256.Idx) => ?_
  obtain ⟨p, q, cc, rfl⟩ := block_coords j
  have hn : win0_4.index t (0 : Fin 4) < 8 := by omega
  have ht : win0_4.index t (1 : Fin 4) * 64 + p.val < 256 := by have := p.isLt; omega
  have hv : win0_4.index t (3 : Fin 4) * 256 + cc.val < 1024 := by have := cc.isLt; omega
  have hemb : ((cfg0.win 4).blk t).view.emb (ix4 (0 : Fin 1) p q cc)
      = ix4 (⟨_, hn⟩ : Fin 8) (⟨_, ht⟩ : Fin 256) q (⟨_, hv⟩ : Fin 1024) := by
    funext a; apply Fin.ext
    match a with
    | ⟨0, _⟩ => show win0_4.index t (0 : Fin 4) * 1 + 1 * 0 = win0_4.index t (0 : Fin 4); omega
    | ⟨1, _⟩ => show win0_4.index t (1 : Fin 4) * 64 + 1 * p.val = win0_4.index t (1 : Fin 4) * 64 + p.val; omega
    | ⟨2, _⟩ => show win0_4.index t (2 : Fin 4) * 64 + 1 * q.val = q.val; omega
    | ⟨3, _⟩ => show win0_4.index t (3 : Fin 4) * 256 + 1 * cc.val = win0_4.index t (3 : Fin 4) * 256 + cc.val; omega
  show k0_pay1 (iblk m c 0 t) (iblk m c 1 t) (iblk m c 2 t) (iblk m c 3 t) (ix4 (0 : Fin 1) p q cc)
    = result m c (((cfg0.win 4).blk t).view.emb (ix4 (0 : Fin 1) p q cc))
  rw [hemb]
  refine block_entry _ _ _ _ _ _ _ _ p q cc _ _ _ _ (fun k => ?_) (fun k => ?_) (fun k => ?_) ?_
  · show V m c main_arg0 (((cfg0.win 0).blk t).view.emb (ix3 (0 : Fin 1) p k)) = _
    rw [V_main_arg0]
    refine congrArg _ (funext fun a => Fin.ext ?_)
    match a with
    | ⟨0, _⟩ => show win0_0.index t (0 : Fin 3) * 1 + 1 * 0 = win0_4.index t (0 : Fin 4); omega
    | ⟨1, _⟩ => show win0_0.index t (1 : Fin 3) * 64 + 1 * p.val = win0_4.index t (1 : Fin 4) * 64 + p.val; omega
    | ⟨2, _⟩ => show win0_0.index t (2 : Fin 3) * 512 + 1 * k.val = k.val; omega
  · show V m c main_arg2 (((cfg0.win 1).blk t).view.emb (ix3 (0 : Fin 1) q k)) = _
    rw [V_main_arg2]
    refine congrArg _ (funext fun a => Fin.ext ?_)
    match a with
    | ⟨0, _⟩ => show win0_1.index t (0 : Fin 3) * 1 + 1 * 0 = win0_4.index t (0 : Fin 4); omega
    | ⟨1, _⟩ => show win0_1.index t (1 : Fin 3) * 64 + 1 * q.val = q.val; omega
    | ⟨2, _⟩ => show win0_1.index t (2 : Fin 3) * 512 + 1 * k.val = k.val; omega
  · show V m c main_v0 (((cfg0.win 2).blk t).view.emb (ix2 k cc)) = _
    have hw : ((cfg0.win 2).blk t).view.emb (ix2 k cc) = ix2 k (⟨_, hv⟩ : Fin 1024) := by
      funext a; apply Fin.ext
      match a with
      | ⟨0, _⟩ => show win0_2.index t (0 : Fin 2) * 512 + 1 * k.val = k.val; omega
      | ⟨1, _⟩ => show win0_2.index t (1 : Fin 2) * 256 + 1 * cc.val = win0_4.index t (3 : Fin 4) * 256 + cc.val; omega
    rw [hw]
    exact weights_at_entry_apply m c k _
  · show V m c main_arg5 (((cfg0.win 3).blk t).view.emb (ix1 cc)) = _
    rw [V_main_arg5]
    refine congrArg _ (funext fun a => Fin.ext ?_)
    match a with
    | ⟨0, _⟩ => show win0_3.index t (0 : Fin 1) * 256 + 1 * cc.val = win0_4.index t (3 : Fin 4) * 256 + cc.val; omega

/-! ## The blocks tile the result array -/

/-- An index of the result array is in point `t`'s block iff each coordinate is in the block's range on its axis. -/
theorem mem_blk (t : Fin cfg0.N) (i : S8x256x64x1024.Idx) :
    i ∈ ((cfg0.win 4).blk t).view.set ↔ ∀ a : Fin 4, win0_4.index t a * S1x64x64x256.size a ≤ (i a).val
      ∧ (i a).val < win0_4.index t a * S1x64x64x256.size a + S1x64x64x256.size a := by
  show i ∈ ((View.whole main_v1).slice (win0_4.rect t)).set ↔ _
  rw [View.set_slice_whole, Rect.mem_set_unit]
  exact Iff.rfl

/-- Every index `(n, t, u, v)` of the result array is in the block of the point for entry `n`, frame block `t / 64`
    and column block `v / 256`, and that point writes its block back. -/
theorem covered (i : S8x256x64x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 64, by omega⟩ ⟨(i 3).val / 256, by omega⟩
  have q0 : win0_4.index t (0 : Fin 4) = (i 0).val := congrFun ht 0
  have q1 : win0_4.index t (1 : Fin 4) = (i 1).val / 64 := congrFun ht 1
  have q2 : win0_4.index t (2 : Fin 4) = 0 := congrFun ht 2
  have q3 : win0_4.index t (3 : Fin 4) = (i 3).val / 256 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 64 ≤ (i 2).val ∧ (i 2).val < win0_4.index t (2 : Fin 4) * 64 + 64; omega
  | ⟨3, _⟩ => show win0_4.index t (3 : Fin 4) * 256 ≤ (i 3).val ∧ (i 3).val < win0_4.index t (3 : Fin 4) * 256 + 256; omega

/-- The result array after the run is the joint layer of the argument arrays. -/
theorem final (c : Dev nD) : (dats m 0 c).arrAt 4 cfg0.N = result m c :=
  (dats m 0 c).arrAt_eq_of_cover 4 (result m c) (fun t _ => flushed_eq m c t) covered

/-! ## The run -/

/-- Every weakly fair execution of the idealized kernel terminates with the result array at the joint layer of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Joint

end
-- ==== Proof.RefValue.lean ====
/-
  The reference program computes the joint layer.

  The reference lays the source encodings over the target positions and the target encodings over the source frames
  by two broadcasts each, adds them, clamps at zero, contracts the feature axis against the feature axis of the
  `[1024, 512]` weights, and adds the bias laid over the three leading axes. Read one operation at a time at an output
  index `i = (n, t, u, v)`, every broadcast reads its operand at the coordinates of `i` it keeps, and the contraction
  is the sum over the feature `k`: the result is `jointLayer` of the four float arguments, entry by entry.
-/
import proofs.«126820_j20873541058896_1_alg».proof.Proof.Gen.ReferenceIdeal.Read
import proofs.«126820_j20873541058896_1_alg».proof.Proof.LibJointLayer

noncomputable section

namespace Cert.ReferenceIdeal.Joint

open Cert.ReferenceIdeal Cert.ReferenceIdeal.Gen Cert.ReferenceIdeal.Read Idealize.ShloMosaic Idealize.ShloMosaic.ValueIdx
open Cert.JointLayer

/-- Through its two broadcasts, the source operand of the sum at `(n, t, u, k)` is the source array at `(n, t, k)`. -/
theorem src_index (i : S8x256x64x1024.Idx) (k : Fin 512) :
    idx_main_v0 (idx_main_v2 (lidx_main_v6 i k)) = ix3 (i 0) (i 1) k :=
  funext fun a => Fin.ext (by
    match a with
    | ⟨0, _⟩ => rfl
    | ⟨1, _⟩ => rfl
    | ⟨2, _⟩ => rfl)

/-- Through its two broadcasts, the target operand of the sum at `(n, t, u, k)` is the target array at `(n, u, k)`. -/
theorem tgt_index (i : S8x256x64x1024.Idx) (k : Fin 512) :
    idx_main_v1 (idx_main_v3 (lidx_main_v6 i k)) = ix3 (i 0) (i 2) k :=
  funext fun a => Fin.ext (by
    match a with
    | ⟨0, _⟩ => rfl
    | ⟨1, _⟩ => rfl
    | ⟨2, _⟩ => rfl)

/-- The contraction reads the weights at row `v` and column `k`. -/
theorem weight_index (i : S8x256x64x1024.Idx) (k : Fin 512) : ridx_main_v6 i k = ix2 (i 3) k :=
  funext fun a => Fin.ext (by
    match a with
    | ⟨0, _⟩ => rfl
    | ⟨1, _⟩ => rfl)

/-- Through its two broadcasts, the bias operand at `(n, t, u, v)` is the bias at `v`. -/
theorem bias_index (i : S8x256x64x1024.Idx) : idx_main_v7 (idx_main_v8 i) = ix1 (i 3) :=
  funext fun a => Fin.ext (by
    match a with
    | ⟨0, _⟩ => rfl)

/-- The reference's result is the joint layer of its four float arguments. -/
theorem reference_eq (x0 : FVec Ideal S8x256x512 .f32) (x2 : FVec Ideal S8x64x512 .f32) (x4 : FVec Ideal S1024x512 .f32)
    (x5 : FVec Ideal S1024 .f32) :
    val_main_v9 (F := Ideal) x0 x2 x4 x5 = jointLayer x0 x2 x4 x5 := by
  funext i
  rw [val_main_v9_apply, val_main_v6_apply, val_main_v8_apply, val_main_v7_apply, bias_index]
  show (∑ k : Fin 512, _) + _ = _
  unfold jointLayer act
  refine congrArg (· + x5 (ix1 (i 3))) (Finset.sum_congr rfl fun k _ => ?_)
  rw [val_main_v5_apply, val_main_v4_apply, val_main_v2_apply, val_main_v0_apply, val_main_v3_apply, val_main_v1_apply,
    val_main_call0_v0_apply, val_main_call0_cst_apply, src_index, tgt_index, weight_index]
  rfl

end Cert.ReferenceIdeal.Joint

end
-- ==== Proof.lean ====
/- The kernel and its reference compute the joint layer of a sequence transducer, and they agree over the extended reals.

   For source encodings `src : [8, 256, 512]`, target encodings `tgt : [8, 64, 512]`, weights `w : [1024, 512]` and a bias
   `[1024]`, both programs return

       out (n, t, u, v) = Σ_k max (src (n, t, k) + tgt (n, u, k), 0) · w (v, k)  +  bias (v)

   and pass the two integer length arrays through unchanged.

   The reference builds the four-axis array of clamped sums and contracts its feature axis against the weights' feature
   axis; read one operation at a time at an output index it is that formula (`ReferenceIdeal.Joint.reference_eq`).
   The kernel transposes the weights on the host, and at each of its 8 · 4 · 4 grid points takes 64 source rows and the
   64 target rows of one batch entry, forms their clamped outer sum as a `[4096, 512]` matrix, multiplies it by a
   `[512, 256]` block of the transposed weights and adds the bias block: entry by entry that is the same formula at the
   block's place in the result array (`KernelIdeal.Block.payload_apply`, `KernelIdeal.Joint.flushed_eq`), and the blocks
   tile the array (`KernelIdeal.Joint.covered`). At the ideal values the kernel's two roundings to a shorter float
   format are the identity and its matrix product is the plain sum of products, in the reference's order of summation,
   so the two results are one function of the arguments and no algebraic law, hence no finiteness of the inputs, is used.

   The three frames are the generated frame runs (the reference's is its generated run with the result dropped); the
   idealization rewrote no operation, so there is nothing to preserve. -/
import proofs.«126820_j20873541058896_1_alg».proof.Defs
import proofs.«126820_j20873541058896_1_alg».proof.Proof.Gen.Kernel
import proofs.«126820_j20873541058896_1_alg».proof.Proof.Gen.Kernel.Skeleton
import proofs.«126820_j20873541058896_1_alg».proof.Proof.Gen.Kernel.Launch
import proofs.«126820_j20873541058896_1_alg».proof.Proof.Gen.Kernel.Points
import proofs.«126820_j20873541058896_1_alg».proof.Proof.Gen.Kernel.Frame
import proofs.«126820_j20873541058896_1_alg».proof.Proof.Gen.KernelIdeal
import proofs.«126820_j20873541058896_1_alg».proof.Proof.Gen.KernelIdeal.Skeleton
import proofs.«126820_j20873541058896_1_alg».proof.Proof.Gen.KernelIdeal.Launch
import proofs.«126820_j20873541058896_1_alg».proof.Proof.Gen.KernelIdeal.Points
import proofs.«126820_j20873541058896_1_alg».proof.Proof.Gen.KernelIdeal.Frame
import proofs.«126820_j20873541058896_1_alg».proof.Proof.Gen.KernelIdeal.Value
import proofs.«126820_j20873541058896_1_alg».proof.Proof.Gen.ReferenceIdeal.Run
import proofs.«126820_j20873541058896_1_alg».proof.Proof.Gen.ReferenceIdeal.Read
import proofs.«126820_j20873541058896_1_alg».proof.Proof.Gen.ReferenceIdeal
import proofs.«126820_j20873541058896_1_alg».proof.Proof.Gen.Pre_finite_inputs
import proofs.«126820_j20873541058896_1_alg».proof.Proof.KernelArray
import proofs.«126820_j20873541058896_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a list of host operations: its run, with what it says of the result dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the arguments both programs end with the joint layer of the kernel's arguments in
    their first result and the two length arrays, as launched, in the other two. -/
theorem algebraic : Cert.algebraic_KernelIdeal_ReferenceIdeal := by
  intro m ρ m' ρ' _ hagree
  refine ⟨fun c => Cert.KernelIdeal.Joint.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · exact (θ_run Cert.KernelIdeal.defs _ _).mono
      (fun r h c => ⟨(h c).1, (h c).2.2.1, (h c).2.2.2.2.1, (h c).2⟩) (Cert.KernelIdeal.Joint.run m ρ)
  · refine (θ_run Cert.ReferenceIdeal.defs _ _).mono (fun r h c => ?_)
      (Cert.ReferenceIdeal.Value.run (F := Ideal) m' ρ')
    obtain ⟨h9, h1, h3, hrest⟩ := h c
    obtain ⟨a0, a1, a2, a3, a4, a5⟩ := hagree c
    refine ⟨?_, h1.trans a1, h3.trans a3, hrest⟩
    rw [h9, Cert.ReferenceIdeal.Read.val_main_v9_eq, Cert.ReferenceIdeal.Joint.reference_eq, a0, a2, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
